-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2500x100 : Shape := ⟨3, ![8, 2500, 100]⟩
abbrev S8922x100 : Shape := ⟨2, ![8922, 100]⟩
abbrev S_ : Shape := ⟨0, ![]⟩

class Facts : Prop where
  bcast_S_S8x2500x100 : S_.BroadcastsInDim S8x2500x100 (![] : Fin 0 → Fin S8x2500x100.rank)
  reducesTo_S8x2500x100_S_d0_1_2 : S8x2500x100.ReducesTo [0, 1, 2] S_
  h_S_ : 0 < S_.numel
  bcast_S_S8922x100 : S_.BroadcastsInDim S8922x100 (![] : Fin 0 → Fin S8922x100.rank)
  reducesTo_S8922x100_S_d0_1 : S8922x100.ReducesTo [0, 1] S_

variable [Facts]

def fn {F : FTy → Type} [FloatOps F] (main_arg0 : FVec F S8x2500x100 .f32) (main_arg1 : FVec F S8922x100 .f32) : IVec S_ 1 :=
  let main_v0 : FVec F S8x2500x100 .f32 := Host.absf main_arg0
  let main_cst : FVec F S_ .f32 := constant S_ .f32 0x7F800000#32
  let main_v1 : FVec F S8x2500x100 .f32 := broadcastInDim S8x2500x100 ![] bcast_S_S8x2500x100 main_cst
  let main_v2 : IVec S8x2500x100 1 := cmpf .olt main_v0 main_v1
  let main_c : IVec S_ 1 := constantI S_ 1 1#1
  let main_v3 : IVec S_ 1 := (fun x v => Host.reduce IntOp.andi x v reducesTo_S8x2500x100_S_d0_1_2 h_S_) main_v2 main_c
  let main_v4 : FVec F S8922x100 .f32 := Host.absf main_arg1
  let main_cst_0 : FVec F S_ .f32 := constant S_ .f32 0x7F800000#32
  let main_v5 : FVec F S8922x100 .f32 := broadcastInDim S8922x100 ![] bcast_S_S8922x100 main_cst_0
  let main_v6 : IVec S8922x100 1 := cmpf .olt main_v4 main_v5
  let main_c_1 : IVec S_ 1 := constantI S_ 1 1#1
  let main_v7 : IVec S_ 1 := (fun x v => Host.reduce IntOp.andi x v reducesTo_S8922x100_S_d0_1 h_S_) main_v6 main_c_1
  let main_v8 : IVec S_ 1 := andi main_v3 main_v7
  main_v8
-- ==== Kernel.lean ====
abbrev S8x2500x100 : Shape := ⟨3, ![8, 2500, 100]⟩
abbrev S8922x100 : Shape := ⟨2, ![8922, 100]⟩
abbrev S_ : Shape := ⟨0, ![]⟩
abbrev S8x2500x128 : Shape := ⟨3, ![8, 2500, 128]⟩
abbrev S9216x128 : Shape := ⟨2, ![9216, 128]⟩
abbrev S8x9216x128 : Shape := ⟨3, ![8, 9216, 128]⟩
abbrev S1024x128 : Shape := ⟨2, ![1024, 128]⟩
abbrev S1x2500x128 : Shape := ⟨3, ![1, 2500, 128]⟩
abbrev S1x1024x128 : Shape := ⟨3, ![1, 1024, 128]⟩
abbrev S2500x128 : Shape := ⟨2, ![2500, 128]⟩
abbrev S1024x2500 : Shape := ⟨2, ![1024, 2500]⟩
abbrev S1024 : Shape := ⟨1, ![1024]⟩
abbrev S1024x1 : Shape := ⟨2, ![1024, 1]⟩
abbrev S8x8922x100 : Shape := ⟨3, ![8, 8922, 100]⟩

abbrev nBuf : Space → Nat
  | .hbm => 12
  | .vmem => 6
  | .smem => 0
  | _ => 0

abbrev bufTy : (tb : Table) → Fin (tcTables nBuf tb) → BufTy
  | .hbm, ⟨0, _⟩ => ⟨S8x2500x100, .f32⟩
  | .hbm, ⟨1, _⟩ => ⟨S8922x100, .f32⟩
  | .hbm, ⟨2, _⟩ => ⟨S_, .i32⟩
  | .hbm, ⟨3, _⟩ => ⟨S_, .f32⟩
  | .hbm, ⟨4, _⟩ => ⟨S8x2500x128, .f32⟩
  | .hbm, ⟨5, _⟩ => ⟨S8x2500x128, .bf16⟩
  | .hbm, ⟨6, _⟩ => ⟨S_, .i32⟩
  | .hbm, ⟨7, _⟩ => ⟨S_, .f32⟩
  | .hbm, ⟨8, _⟩ => ⟨S9216x128, .f32⟩
  | .hbm, ⟨9, _⟩ => ⟨S9216x128, .bf16⟩
  | .hbm, ⟨10, _⟩ => ⟨S8x9216x128, .f32⟩
  | .hbm, ⟨11, _⟩ => ⟨S8x8922x100, .f32⟩
  | .local _ .vmem, ⟨0, _⟩ => ⟨S1024x128, .bf16⟩
  | .local _ .vmem, ⟨1, _⟩ => ⟨S1024x128, .bf16⟩
  | .local _ .vmem, ⟨2, _⟩ => ⟨S1x2500x128, .bf16⟩
  | .local _ .vmem, ⟨3, _⟩ => ⟨S1x2500x128, .bf16⟩
  | .local _ .vmem, ⟨4, _⟩ => ⟨S1x1024x128, .f32⟩
  | .local _ .vmem, ⟨5, _⟩ => ⟨S1x1024x128, .f32⟩
  | _, _ => ⟨S8x2500x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2500x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x2500x100_S8x2500x128_000_000_0280 : S8x2500x100.Pads (![0, 0, 0] : Fin 3 → Nat) ![0, 0, 28] ![0, 0, 0] S8x2500x128
  h_S_ : 0 < S_.numel
  bitsLt_bf16_f32 : FTy.bits .bf16 < FTy.bits .f32
  pads_S8922x100_S9216x128_02940_0280 : S8922x100.Pads (![0, 0] : Fin 2 → Nat) ![294, 28] ![0, 0] S9216x128
  inb_S1x2500x128_S1x2500x128_0_0_0 : ∀ a, (![0, 0, 0] : Fin 3 → Nat) a + S1x2500x128.size a ≤ S1x2500x128.size a
  h_S1x2500x128 : 0 < S1x2500x128.numel
  shapeCasts_S1x2500x128_S2500x128 : S1x2500x128.ShapeCasts S2500x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x2500_S1024 : S1024x2500.Reduces [1] S1024
  shapeCasts_S1024_S1024x1 : S1024.ShapeCasts S1024x1
  broadcasts_S1024x1_S1024x2500 : S1024x1.Broadcasts S1024x2500
  broadcasts_S1024x1_S1024x128 : S1024x1.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S8x9216x128_S8x8922x100_0_0_0 : S8x9216x128.Slices ![0, 0, 0] S8x8922x100
  dot_S1024x128_S2500x128_S1024x2500_1_1_0_0_n_n_wf : DotDims.WF S1024x128 S2500x128 S1024x2500 [1] [1] [0] [0] [] []
  dot_S1024x2500_S2500x128_S1024x128_1_0_0_1_n_n_wf : DotDims.WF S1024x2500 S2500x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S9216x128.size a
  hwx0_0 : ∀ i : grid0.Coords, EltTy.bits .bf16 = 32 ∨ (Rect.block (s := S9216x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2500x128.size a ≤ S8x2500x128.size a
  hwx0_1 : ∀ i : grid0.Coords, EltTy.bits .bf16 = 32 ∨ (Rect.block (s := S8x2500x128) S1x2500x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x9216x128.size a
  hwx0_2 : ∀ i : grid0.Coords, EltTy.bits .f32 = 32 ∨ (Rect.block (s := S8x9216x128) S1x1024x128.size (cc0_transform_2 i) (hinb0_2 i)).WholeWords (EltTy.packing .f32)

variable [Facts₀]

def dot_S1024x128_S2500x128_S1024x2500_1_1_0_0_n_n : DotDims S1024x128 S2500x128 S1024x2500 where
  lhsContracting := [1]
  rhsContracting := [1]
  lhsNonContracting := [0]
  rhsNonContracting := [0]
  lhsBatch := []
  rhsBatch := []
  wf := dot_S1024x128_S2500x128_S1024x2500_1_1_0_0_n_n_wf
def dot_S1024x2500_S2500x128_S1024x128_1_0_0_1_n_n : DotDims S1024x2500 S2500x128 S1024x128 where
  lhsContracting := [1]
  rhsContracting := [0]
  lhsNonContracting := [0]
  rhsNonContracting := [1]
  lhsBatch := []
  rhsBatch := []
  wf := dot_S1024x2500_S2500x128_S1024x128_1_0_0_1_n_n_wf

abbrev win0_0 : Pipeline.Window sig grid0 :=
  Pipeline.Window.ofSpec (Memref.whole main_v3) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2500x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2500x100 : Shape := ⟨3, ![8, 2500, 100]⟩
abbrev S8922x100 : Shape := ⟨2, ![8922, 100]⟩
abbrev S8x2500x8922 : Shape := ⟨3, ![8, 2500, 8922]⟩
abbrev S8x8922x2500 : Shape := ⟨3, ![8, 8922, 2500]⟩
abbrev S_ : Shape := ⟨0, ![]⟩
abbrev S8x8922 : Shape := ⟨2, ![8, 8922]⟩
abbrev S8x8922x1 : Shape := ⟨3, ![8, 8922, 1]⟩
abbrev S8x8922x100 : Shape := ⟨3, ![8, 8922, 100]⟩

abbrev nBuf : Space → Nat
  | .hbm => 19
  | .vmem => 0
  | .smem => 0
  | _ => 0

abbrev bufTy : (tb : Table) → Fin (tcTables nBuf tb) → BufTy
  | .hbm, ⟨0, _⟩ => ⟨S8x2500x100, .f32⟩
  | .hbm, ⟨1, _⟩ => ⟨S8922x100, .f32⟩
  | .hbm, ⟨2, _⟩ => ⟨S8x2500x8922, .f32⟩
  | .hbm, ⟨3, _⟩ => ⟨S8x8922x2500, .f32⟩
  | .hbm, ⟨4, _⟩ => ⟨S_, .f32⟩
  | .hbm, ⟨5, _⟩ => ⟨S8x8922, .f32⟩
  | .hbm, ⟨6, _⟩ => ⟨S_, .f32⟩
  | .hbm, ⟨7, _⟩ => ⟨S8x8922, .f32⟩
  | .hbm, ⟨8, _⟩ => ⟨S8x8922, .f32⟩
  | .hbm, ⟨9, _⟩ => ⟨S8x8922x1, .f32⟩
  | .hbm, ⟨10, _⟩ => ⟨S8x8922x2500, .f32⟩
  | .hbm, ⟨11, _⟩ => ⟨S8x8922x2500, .f32⟩
  | .hbm, ⟨12, _⟩ => ⟨S8x8922x2500, .f32⟩
  | .hbm, ⟨13, _⟩ => ⟨S_, .f32⟩
  | .hbm, ⟨14, _⟩ => ⟨S8x8922, .f32⟩
  | .hbm, ⟨15, _⟩ => ⟨S8x8922x1, .f32⟩
  | .hbm, ⟨16, _⟩ => ⟨S8x8922x2500, .f32⟩
  | .hbm, ⟨17, _⟩ => ⟨S8x8922x2500, .f32⟩
  | .hbm, ⟨18, _⟩ => ⟨S8x8922x100, .f32⟩
  | _, _ => ⟨S8x2500x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S8x2500x8922_S8x8922x2500_0_2_1 : S8x2500x8922.Transposes [0, 2, 1] S8x8922x2500
  reducesTo_S8x8922x2500_S8x8922_d2 : S8x8922x2500.ReducesTo [2] S8x8922
  h_S_ : 0 < S_.numel
  bcast_S_S8x8922 : S_.BroadcastsInDim S8x8922 (![] : Fin 0 → Fin S8x8922.rank)
  bcast_S8x8922_S8x8922x1_0_1 : S8x8922.BroadcastsInDim S8x8922x1 (![0, 1] : Fin 2 → Fin S8x8922x1.rank)
  bcast_S8x8922x1_S8x8922x2500_0_1_2 : S8x8922x1.BroadcastsInDim S8x8922x2500 (![0, 1, 2] : Fin 3 → Fin S8x8922x2500.rank)
  dot_S8x2500x100_S8922x100_S8x2500x8922_2_1_01_0_n_n_wf : DotDims.WF S8x2500x100 S8922x100 S8x2500x8922 [2] [1] [0, 1] [0] [] []
  dot_S8x8922x2500_S8x2500x100_S8x8922x100_2_1_1_2_0_0_wf : DotDims.WF S8x8922x2500 S8x2500x100 S8x8922x100 [2] [1] [1] [2] [0] [0]

variable [Facts₀]

def dot_S8x2500x100_S8922x100_S8x2500x8922_2_1_01_0_n_n : DotDims S8x2500x100 S8922x100 S8x2500x8922 where
  lhsContracting := [2]
  rhsContracting := [1]
  lhsNonContracting := [0, 1]
  rhsNonContracting := [0]
  lhsBatch := []
  rhsBatch := []
  wf := dot_S8x2500x100_S8922x100_S8x2500x8922_2_1_01_0_n_n_wf
def dot_S8x8922x2500_S8x2500x100_S8x8922x100_2_1_1_2_0_0 : DotDims S8x8922x2500 S8x2500x100 S8x8922x100 where
  lhsContracting := [2]
  rhsContracting := [1]
  lhsNonContracting := [1]
  rhsNonContracting := [2]
  lhsBatch := [0]
  rhsBatch := [0]
  wf := dot_S8x8922x2500_S8x2500x100_S8x8922x100_2_1_1_2_0_0_wf

class Facts : Prop extends Facts₀ where

variable [Facts]
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.AttnRow.lean ====
/-
  One row of dot-product attention on the extended reals.

  Given the scores `s l` of one query against the positions `l` and one column `v l` of the values, the softmax weight of
  position `l` is `exp (s l − max s)`. The weighted sum can be normalised AFTER it is taken (one division of the sum) or
  BEFORE (every weight divided by the weights' total first). For real scores and values the two agree: the maximum of
  finitely many reals is a real, every weight is a positive real, their total is a positive real, and on the reals a
  quotient of a sum is the sum of the quotients. (At the infinities the law fails, which is why the entries must be reals.)
  Also: a sum whose trailing terms vanish is the sum of its leading terms (zero padding of a contraction).
-/
import Idealize.ShloMosaic.PureOps.Ideal
import Idealize.ShloMosaic.PureOps.Ideal.Laws
import proofs.«420723_j18124761989378_3_alg».proof.Proof.LibRealSums

noncomputable section

namespace Cert.AttnRow

open Idealize.ShloMosaic
open scoped BigOperators

variable {L : ℕ}

/-- The unnormalised softmax weight of position `l`: `exp (s l − max s)`, the maximum folded from −∞. -/
def weight (s : Fin L → EReal) (l : Fin L) : EReal :=
  Ideal.exp (s l - Finset.univ.fold max (⊥ : EReal) s)

/-- The weighted sum of the values, divided once by the weights' total. -/
def scaledAfter (s v : Fin L → EReal) : EReal :=
  (∑ l, weight s l * v l) * Ideal.div 1 (∑ l, weight s l)

/-- The sum of the values weighted by the normalised weights. -/
def scaledBefore (s v : Fin L → EReal) : EReal :=
  ∑ l, Ideal.div (weight s l) (∑ l', weight s l') * v l

/-- For real scores every weight is the real `exp (s l − m)`, `m` the real maximum. -/
theorem weight_real (hL : 0 < L) (s : Fin L → ℝ) :
    ∃ m : ℝ, ∀ l, weight (fun l => (s l : EReal)) l = ((Real.exp (s l - m) : ℝ) : EReal) := by
  obtain ⟨m, hm⟩ := Cert.RealSums.fold_max_bot_real Finset.univ ⟨⟨0, hL⟩, Finset.mem_univ _⟩
    (fun l => (s l : EReal)) (fun l => ⟨s l, rfl⟩)
  refine ⟨m, fun l => ?_⟩
  unfold weight
  rw [hm, ← EReal.coe_sub]
  rfl

/-- For real scores and values, normalising after the weighted sum is normalising every weight first. -/
theorem scaledAfter_eq_scaledBefore (hL : 0 < L) (s v : Fin L → ℝ) :
    scaledAfter (fun l => (s l : EReal)) (fun l => (v l : EReal))
      = scaledBefore (fun l => (s l : EReal)) (fun l => (v l : EReal)) := by
  obtain ⟨m, hw⟩ := weight_real hL s
  have hne : (Finset.univ : Finset (Fin L)).Nonempty := ⟨⟨0, hL⟩, Finset.mem_univ _⟩
  have hS : (∑ l, weight (fun l => (s l : EReal)) l) = ((∑ l, Real.exp (s l - m) : ℝ) : EReal) := by
    rw [Cert.RealSums.coe_sum]; exact Finset.sum_congr rfl fun l _ => hw l
  have hpos : (∑ l : Fin L, Real.exp (s l - m)) ≠ 0 := (Finset.sum_pos (fun l _ => Real.exp_pos _) hne).ne'
  unfold scaledAfter scaledBefore
  rw [hS]
  simp only [hw]
  rw [← Cert.RealSums.div_sum_eq_sum_div Finset.univ (fun l => Real.exp (s l - m)) v _ hpos]
  rw [Ideal.div_coe hpos, Ideal.div_coe hpos, one_mul]

/-- A sum of `n + p` terms whose last `p` vanish is the sum of the first `n`. -/
theorem sum_of_tail_zero {n p : ℕ} (f : Fin (n + p) → EReal) (h : ∀ j : Fin p, f (Fin.natAdd n j) = 0) :
    ∑ i, f i = ∑ i : Fin n, f (Fin.castAdd p i) := by
  rw [Fin.sum_univ_add, Finset.sum_eq_zero (fun j _ => h j), add_zero]

end Cert.AttnRow

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.KernelRow.lean ====
/-
  What the attention kernel's body stores, read at one element.

  The body loads a block `q` of 1024 label rows (128 lanes each) and one batch's sequence `x` (2500 positions, 128 lanes),
  forms the scores `s[p, l] = Σ_k q[p, k] · x[l, k]` on the matrix unit, takes each row's maximum and the weights
  `exp (s − max)`, their row totals, the products `Σ_l weight[p, l] · x[l, e]` on the matrix unit again, and scales row `p`
  by `1 / total[p]`. At the ideal values a change of float format is the identity, a product onto a zero accumulator is
  the plain sum over the contracted axis, and a lane reduction is the sum (or the fold of max from −∞) over the
  reduced axis; so the element at `(0, p, e)` is one row of attention, normalised after the weighted sum
  (`Cert.AttnRow.scaledAfter`).
-/
import proofs.«420723_j18124761989378_3_alg».proof.Proof.Gen.KernelIdeal.Skeleton
import proofs.«420723_j18124761989378_3_alg».proof.Proof.AttnRow
import proofs.«420723_j18124761989378_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Idealize.ShloMosaic Idealize.ShloMosaic.ValueIdx Idealize.ShloMosaic.Column
open Cert.KernelIdeal Cert.KernelIdeal.Gen
open scoped BigOperators

/-! ## The scores: label rows against sequence positions, both contracted along their lanes -/

theorem lhs_scores_0 (i : S1024x2500.Idx) (q : dot_S1024x128_S2500x128_S1024x2500_1_1_0_0_n_n.contr.Idx) :
    (dot_S1024x128_S2500x128_S1024x2500_1_1_0_0_n_n.lhsIdx i q 0).val = (i 0).val := by
  unfold DotDims.lhsIdx
  rw [dif_neg (show ¬(0 : Fin S1024x128.rank) ∈ dot_S1024x128_S2500x128_S1024x2500_1_1_0_0_n_n.lhsBatch by decide), dif_pos (show (0 : Fin S1024x128.rank) ∈ dot_S1024x128_S2500x128_S1024x2500_1_1_0_0_n_n.lhsNonContracting by decide)]
  rfl
theorem lhs_scores_1 (i : S1024x2500.Idx) (q : dot_S1024x128_S2500x128_S1024x2500_1_1_0_0_n_n.contr.Idx) :
    (dot_S1024x128_S2500x128_S1024x2500_1_1_0_0_n_n.lhsIdx i q 1).val = (q ⟨0, by decide⟩).val :=
  dot_S1024x128_S2500x128_S1024x2500_1_1_0_0_n_n.lhsIdx_val_of_single rfl i q
theorem rhs_scores_0 (i : S1024x2500.Idx) (q : dot_S1024x128_S2500x128_S1024x2500_1_1_0_0_n_n.contr.Idx) :
    (dot_S1024x128_S2500x128_S1024x2500_1_1_0_0_n_n.rhsIdx i q 0).val = (i 1).val := by
  unfold DotDims.rhsIdx
  rw [dif_neg (show ¬(0 : Fin S2500x128.rank) ∈ dot_S1024x128_S2500x128_S1024x2500_1_1_0_0_n_n.rhsBatch by decide), dif_pos (show (0 : Fin S2500x128.rank) ∈ dot_S1024x128_S2500x128_S1024x2500_1_1_0_0_n_n.rhsNonContracting by decide)]
  rfl
theorem rhs_scores_1 (i : S1024x2500.Idx) (q : dot_S1024x128_S2500x128_S1024x2500_1_1_0_0_n_n.contr.Idx) :
    (dot_S1024x128_S2500x128_S1024x2500_1_1_0_0_n_n.rhsIdx i q 1).val = (q ⟨0, by decide⟩).val :=
  dot_S1024x128_S2500x128_S1024x2500_1_1_0_0_n_n.rhsIdx_val_of_single rfl i q

/-- The score of label row `p` against position `l` is the sum over the 128 lanes of the two rows' products. -/
theorem scores_apply (q : FVec Ideal S1024x128 .bf16) (x : FVec Ideal S2500x128 .bf16) (p : Fin 1024) (l : Fin 2500) :
    matmul dot_S1024x128_S2500x128_S1024x2500_1_1_0_0_n_n none q x (constant S1024x2500 .f32 0x00000000#32) (ix2 p l)
      = ∑ k : Fin 128, q (ix2 p k) * x (ix2 l k) := by
  simp only [matmul]
  rw [Ideal.matmul_constant_zero_apply, ← Equiv.sum_comp (contrEquiv1 dot_S1024x128_S2500x128_S1024x2500_1_1_0_0_n_n 128 rfl rfl).symm]
  refine Finset.sum_congr rfl fun k _ => ?_
  have hk := contrEquiv1_symm_val dot_S1024x128_S2500x128_S1024x2500_1_1_0_0_n_n 128 rfl rfl k
  have el : dot_S1024x128_S2500x128_S1024x2500_1_1_0_0_n_n.lhsIdx (ix2 p l) ((contrEquiv1 dot_S1024x128_S2500x128_S1024x2500_1_1_0_0_n_n 128 rfl rfl).symm k) = ix2 p k := funext fun a => Fin.ext (by
    match a with
    | ⟨0, _⟩ => exact lhs_scores_0 _ _
    | ⟨1, _⟩ => exact (lhs_scores_1 _ _).trans hk)
  have er : dot_S1024x128_S2500x128_S1024x2500_1_1_0_0_n_n.rhsIdx (ix2 p l) ((contrEquiv1 dot_S1024x128_S2500x128_S1024x2500_1_1_0_0_n_n 128 rfl rfl).symm k) = ix2 l k := funext fun a => Fin.ext (by
    match a with
    | ⟨0, _⟩ => exact rhs_scores_0 _ _
    | ⟨1, _⟩ => exact (rhs_scores_1 _ _).trans hk)
  rw [el, er]

/-! ## The weighted values: weights against the sequence, contracted along the positions -/

theorem lhs_mix_0 (i : S1024x128.Idx) (q : dot_S1024x2500_S2500x128_S1024x128_1_0_0_1_n_n.contr.Idx) :
    (dot_S1024x2500_S2500x128_S1024x128_1_0_0_1_n_n.lhsIdx i q 0).val = (i 0).val := by
  unfold DotDims.lhsIdx
  rw [dif_neg (show ¬(0 : Fin S1024x2500.rank) ∈ dot_S1024x2500_S2500x128_S1024x128_1_0_0_1_n_n.lhsBatch by decide), dif_pos (show (0 : Fin S1024x2500.rank) ∈ dot_S1024x2500_S2500x128_S1024x128_1_0_0_1_n_n.lhsNonContracting by decide)]
  rfl
theorem lhs_mix_1 (i : S1024x128.Idx) (q : dot_S1024x2500_S2500x128_S1024x128_1_0_0_1_n_n.contr.Idx) :
    (dot_S1024x2500_S2500x128_S1024x128_1_0_0_1_n_n.lhsIdx i q 1).val = (q ⟨0, by decide⟩).val :=
  dot_S1024x2500_S2500x128_S1024x128_1_0_0_1_n_n.lhsIdx_val_of_single rfl i q
theorem rhs_mix_0 (i : S1024x128.Idx) (q : dot_S1024x2500_S2500x128_S1024x128_1_0_0_1_n_n.contr.Idx) :
    (dot_S1024x2500_S2500x128_S1024x128_1_0_0_1_n_n.rhsIdx i q 0).val = (q ⟨0, by decide⟩).val :=
  dot_S1024x2500_S2500x128_S1024x128_1_0_0_1_n_n.rhsIdx_val_of_single rfl i q
theorem rhs_mix_1 (i : S1024x128.Idx) (q : dot_S1024x2500_S2500x128_S1024x128_1_0_0_1_n_n.contr.Idx) :
    (dot_S1024x2500_S2500x128_S1024x128_1_0_0_1_n_n.rhsIdx i q 1).val = (i 1).val := by
  unfold DotDims.rhsIdx
  rw [dif_neg (show ¬(1 : Fin S2500x128.rank) ∈ dot_S1024x2500_S2500x128_S1024x128_1_0_0_1_n_n.rhsBatch by decide), dif_pos (show (1 : Fin S2500x128.rank) ∈ dot_S1024x2500_S2500x128_S1024x128_1_0_0_1_n_n.rhsNonContracting by decide)]
  rfl

/-- Row `p`, lane `e` of the weighted values is the sum over the 2500 positions of weight times value. -/
theorem mix_apply (w : FVec Ideal S1024x2500 .bf16) (x : FVec Ideal S2500x128 .bf16) (p : Fin 1024) (e : Fin 128) :
    matmul dot_S1024x2500_S2500x128_S1024x128_1_0_0_1_n_n none w x (constant S1024x128 .f32 0x00000000#32) (ix2 p e)
      = ∑ l : Fin 2500, w (ix2 p l) * x (ix2 l e) := by
  simp only [matmul]
  rw [Ideal.matmul_constant_zero_apply, ← Equiv.sum_comp (contrEquiv1 dot_S1024x2500_S2500x128_S1024x128_1_0_0_1_n_n 2500 rfl rfl).symm]
  refine Finset.sum_congr rfl fun k _ => ?_
  have hk := contrEquiv1_symm_val dot_S1024x2500_S2500x128_S1024x128_1_0_0_1_n_n 2500 rfl rfl k
  have el : dot_S1024x2500_S2500x128_S1024x128_1_0_0_1_n_n.lhsIdx (ix2 p e) ((contrEquiv1 dot_S1024x2500_S2500x128_S1024x128_1_0_0_1_n_n 2500 rfl rfl).symm k) = ix2 p k := funext fun a => Fin.ext (by
    match a with
    | ⟨0, _⟩ => exact lhs_mix_0 _ _
    | ⟨1, _⟩ => exact (lhs_mix_1 _ _).trans hk)
  have er : dot_S1024x2500_S2500x128_S1024x128_1_0_0_1_n_n.rhsIdx (ix2 p e) ((contrEquiv1 dot_S1024x2500_S2500x128_S1024x128_1_0_0_1_n_n 2500 rfl rfl).symm k) = ix2 k e := funext fun a => Fin.ext (by
    match a with
    | ⟨0, _⟩ => exact (rhs_mix_0 _ _).trans hk
    | ⟨1, _⟩ => exact rhs_mix_1 _ _)
  rw [el, er]

/-! ## The two row reductions -/

/-- The source index over row `p` with position `l` inserted on the reduced axis. -/
theorem lift_row (p : Fin 1024) (l : Fin 2500) :
    reduces_S1024x2500_S1024.lift (ix1 p) l = ix2 p l :=
  funext fun a => Fin.ext (by match a with | ⟨0, _⟩ => rfl | ⟨1, _⟩ => rfl)

/-- A row's maximum: the fold of max from −∞ over the positions. -/
theorem rowMax_apply (src : FVec Ideal S1024x2500 .f32) (hφ : FKind.Formats .f32)
    (hacc : (0xFF800000#32 : BitVec (FTy.bits .f32)) = FKind.maximumf.neutral .f32 hφ) (p : Fin 1024) :
    multiReduction .maximumf [1] S1024 src 0xFF800000#32 reduces_S1024x2500_S1024 hφ hacc (ix1 p)
      = Finset.univ.fold max (⊥ : EReal) (fun l : Fin 2500 => src (ix2 p l)) := by
  refine (Ideal.multiReduction_maximumf_single src _ reduces_S1024x2500_S1024 hφ hacc (ix1 p)).trans ?_
  rw [Ideal.ofBits_def, ofBits_negInf_f32]
  exact congrArg (Finset.univ.fold max (⊥ : EReal)) (funext fun l => congrArg src (lift_row p l))

/-- A row's total: the sum over the positions. -/
theorem rowSum_apply (src : FVec Ideal S1024x2500 .f32) (hφ : FKind.Formats .f32)
    (hacc : (0x00000000#32 : BitVec (FTy.bits .f32)) = FKind.add.neutral .f32 hφ) (p : Fin 1024) :
    multiReduction .add [1] S1024 src 0x00000000#32 reduces_S1024x2500_S1024 hφ hacc (ix1 p)
      = ∑ l : Fin 2500, src (ix2 p l) := by
  refine (Ideal.multiReduction_add_single src _ reduces_S1024x2500_S1024 hφ hacc (ix1 p)).trans ?_
  exact Finset.sum_congr rfl fun l _ => congrArg src (lift_row p l)

/-! ## The stored element -/

/-- The element the body stores at `(0, p, e)`: row `p` of the label block attending over the batch's positions, lane `e` of
    the values, normalised after the weighted sum. The intermediate arrays are named as the body builds them (the sequence
    without its unit axis, the scores, the row maxima, the weights, the row totals) and each is read at an index. -/
theorem pay_apply (x : Vec Ideal S1x2500x128 .bf16) (q : Vec Ideal S1024x128 .bf16) (p : Fin 1024) (e : Fin 128) :
    k0_pay1 x q (ix3 (0 : Fin 1) p e)
      = Cert.AttnRow.scaledAfter (fun l : Fin 2500 => ∑ k : Fin 128, q (ix2 p k) * x (ix3 (0 : Fin 1) l k))
          (fun l : Fin 2500 => x (ix3 (0 : Fin 1) l e)) := by
  let xs : FVec Ideal S2500x128 .bf16 := shapeCast S2500x128 x shapeCasts_S1x2500x128_S2500x128
  let qs : FVec Ideal S1024x128 .bf16 := shapeCast S1024x128 q shapeCasts_S1024x128_S1024x128
  let s : FVec Ideal S1024x2500 .f32 := matmul dot_S1024x128_S2500x128_S1024x2500_1_1_0_0_n_n none qs xs (constant S1024x2500 .f32 0x00000000#32)
  let mx : FVec Ideal S1024 .f32 := multiReduction .maximumf [1] S1024 s 0xFF800000#32 reduces_S1024x2500_S1024 (.inl rfl) rfl
  let w : FVec Ideal S1024x2500 .f32 :=
    exp (subf s (broadcastTo S1024x2500 (shapeCast S1024x1 mx shapeCasts_S1024_S1024x1) broadcasts_S1024x1_S1024x2500))
  let tot : FVec Ideal S1024 .f32 := multiReduction .add [1] S1024 w 0x00000000#32 reduces_S1024x2500_S1024 (.inl rfl) rfl
  have hxs : ∀ (l : Fin 2500) (k : Fin 128), xs (ix2 l k) = x (ix3 (0 : Fin 1) l k) :=
    fun l k => shapeCast_1ab_ab_apply x _ l k
  have hqs : qs = q := shapeCast_self q _
  have hs : ∀ (p : Fin 1024) (l : Fin 2500), s (ix2 p l) = ∑ k : Fin 128, q (ix2 p k) * x (ix3 (0 : Fin 1) l k) :=
    fun p l => (scores_apply qs xs p l).trans (Finset.sum_congr rfl fun k _ => by rw [hqs, hxs])
  have hmx : ∀ p : Fin 1024, mx (ix1 p)
      = Finset.univ.fold max (⊥ : EReal) (fun l : Fin 2500 => ∑ k : Fin 128, q (ix2 p k) * x (ix3 (0 : Fin 1) l k)) :=
    fun p => (rowMax_apply s _ _ p).trans (congrArg (fun f => Finset.fold max (⊥ : EReal) f (Finset.univ : Finset (Fin 2500))) (funext (hs p)))
  have hw : ∀ (p : Fin 1024) (l : Fin 2500), w (ix2 p l)
      = Cert.AttnRow.weight (fun l' : Fin 2500 => ∑ k : Fin 128, q (ix2 p k) * x (ix3 (0 : Fin 1) l' k)) l := fun p l => by
    show Ideal.exp (s (ix2 p l) - broadcastTo S1024x2500 (shapeCast S1024x1 mx shapeCasts_S1024_S1024x1) broadcasts_S1024x1_S1024x2500 (ix2 p l)) = _
    rw [broadcastTo_a1_ab_apply, shapeCast_a_a1_apply, hmx, hs]
    rfl
  have htot : ∀ p : Fin 1024, tot (ix1 p)
      = ∑ l : Fin 2500, Cert.AttnRow.weight (fun l' : Fin 2500 => ∑ k : Fin 128, q (ix2 p k) * x (ix3 (0 : Fin 1) l' k)) l :=
    fun p => (rowSum_apply w _ _ p).trans (Finset.sum_congr rfl fun l _ => hw p l)
  have hmix : ∀ (p : Fin 1024) (e : Fin 128),
      matmul dot_S1024x2500_S2500x128_S1024x128_1_0_0_1_n_n none (truncf .bf16 w bitsLt_bf16_f32) xs (constant S1024x128 .f32 0x00000000#32) (ix2 p e)
        = ∑ l : Fin 2500, Cert.AttnRow.weight (fun l' : Fin 2500 => ∑ k : Fin 128, q (ix2 p k) * x (ix3 (0 : Fin 1) l' k)) l * x (ix3 (0 : Fin 1) l e) :=
    fun p e => (mix_apply _ xs p e).trans (Finset.sum_congr rfl fun l _ => by rw [truncf_apply, hw, hxs])
  show shapeCast S1x1024x128
      (mulf (matmul dot_S1024x2500_S2500x128_S1024x128_1_0_0_1_n_n none (truncf .bf16 w bitsLt_bf16_f32) xs (constant S1024x128 .f32 0x00000000#32))
        (broadcastTo S1024x128
          (divf (broadcast S1024x1 (Scalar.ofBits (F := Ideal) .f32 0x3F800000#32)) (shapeCast S1024x1 tot shapeCasts_S1024_S1024x1))
          broadcasts_S1024x1_S1024x128))
      shapeCasts_S1024x128_S1x1024x128 (ix3 (0 : Fin 1) p e) = _
  rw [shapeCast_ab_1ab_apply, mulf_apply, hmix, broadcastTo_a1_ab_apply, divf_apply, broadcast_apply, shapeCast_a_a1_apply, htot]
  show _ * Ideal.div (Ideal.ofBits .f32 0x3F800000#32) _ = _
  rw [ofBits_one_f32]
  rfl

end Cert.KernelIdeal.Row

end
-- ==== Proof.KernelBlocks.lean ====
/-
  From the grid's blocks to the whole output array of the attention kernel.

  Grid point `(b, i)` reads label rows `1024·i … 1024·i + 1023` (window 0) and batch `b`'s whole sequence (window 1) and
  writes the `[1, 1024, 128]` block at block index `(b, i, 0)` of the `[8, 9216, 128]` output (window 2). What it writes at
  `(0, p, e)` is row `1024·i + p` of the padded labels attending over batch `b` (the body's stored element), which depends on
  the output's array index `(b, 1024·i + p, e)` only: the blocks are the restrictions of ONE function of the two arrays,
  and since the 8 × 9 blocks tile the output, the output array after the run is that function.
-/
import proofs.«420723_j18124761989378_3_alg».proof.Proof.Gen.KernelIdeal.Frame
import proofs.«420723_j18124761989378_3_alg».proof.Proof.KernelRow
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Row
open scoped BigOperators

variable (m : (ℓ : Loc nD τ sig) → Buf (Elt Ideal) ℓ)

/-- Label row `n` of the padded labels attending over batch `b` of the padded sequences, lane `e`. -/
def attend (qa : S9216x128.Idx → EReal) (xa : S8x2500x128.Idx → EReal) (b : Fin 8) (n : Fin 9216) (e : Fin 128) : EReal :=
  Cert.AttnRow.scaledAfter (fun l : Fin 2500 => ∑ k : Fin 128, qa (ix2 n k) * xa (ix3 b l k)) (fun l : Fin 2500 => xa (ix3 b l e))

/-- The whole output array as one function of the two staged arrays. -/
def outArr (qa : S9216x128.Idx → EReal) (xa : S8x2500x128.Idx → EReal) : S8x9216x128.Idx → EReal := fun i =>
  attend qa xa ⟨(i 0).val, (i 0).isLt⟩ ⟨(i 1).val, (i 1).isLt⟩ ⟨(i 2).val, (i 2).isLt⟩

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 72 grid points: the label window moves with the output's second block
    index, the sequence window with its first, every other block index is zero, and the output's block indices stay
    in their ranges. -/
theorem idx_facts : ∀ t : Fin cfg0.N, win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 7
    ∧ win0_2.index t (1 : Fin 3) ≤ 8 :=
  (by decide +kernel : ∀ t : Fin grid0.N, _)

/-- Every block of the output is some grid point's. -/
theorem idx_onto : ∀ (q0 : Fin 8) (q1 : Fin 9), ∃ t : Fin cfg0.N, win0_2.index t = ![q0.val, q1.val, 0] :=
  (by decide +kernel : ∀ (q0 : Fin 8) (q1 : Fin 9), ∃ t : Fin grid0.N, win0_2.index t = ![q0.val, q1.val, 0])

/-- The label block at point `t`, read at `(p, k)`: the staged label array at the output block's row offset plus `p`. -/
theorem labelBlock_apply (c : Dev nD) (t : Fin cfg0.N) (p : Fin 1024) (k : Fin 128) (n : Fin 9216)
    (hn : n.val = win0_2.index t (1 : Fin 3) * 1024 + 1 * p.val) :
    iblk m c 0 t (ix2 p k) = V m c main_v3 (ix2 n k) := by
  obtain ⟨e0, e1, -⟩ := idx_facts t
  show V m c main_v3 (((cfg0.win 0).blk t).view.emb (ix2 p k)) = V m c main_v3 (ix2 n k)
  refine congrArg (V m c main_v3) (funext fun a => Fin.ext ?_)
  match a with
  | ⟨0, _⟩ =>
    show win0_0.index t (0 : Fin 2) * 1024 + 1 * p.val = n.val
    rw [hn, e0]
  | ⟨1, _⟩ =>
    show win0_0.index t (1 : Fin 2) * 128 + 1 * k.val = k.val
    rw [e1]; omega

/-- The sequence block at point `t`, read at `(0, l, k)`: the staged sequence array at the output block's batch. -/
theorem seqBlock_apply (c : Dev nD) (t : Fin cfg0.N) (l : Fin 2500) (k : Fin 128) (b : Fin 8)
    (hb : b.val = win0_2.index t (0 : Fin 3) * 1 + 1 * 0) :
    iblk m c 1 t (ix3 (0 : Fin 1) l k) = V m c main_v1 (ix3 b l k) := by
  obtain ⟨-, -, e2, e3, e4, -⟩ := idx_facts t
  show V m c main_v1 (((cfg0.win 1).blk t).view.emb (ix3 (0 : Fin 1) l k)) = V m c main_v1 (ix3 b l k)
  refine congrArg (V m c main_v1) (funext fun a => Fin.ext ?_)
  match a with
  | ⟨0, _⟩ =>
    show win0_1.index t (0 : Fin 3) * 1 + 1 * 0 = b.val
    rw [hb, e2]
  | ⟨1, _⟩ =>
    show win0_1.index t (1 : Fin 3) * 2500 + 1 * l.val = l.val
    rw [e3]; omega
  | ⟨2, _⟩ =>
    show win0_1.index t (2 : Fin 3) * 128 + 1 * k.val = k.val
    rw [e4]; omega

/-- What point `t` writes back is block `t` of `outArr` of the staged arrays. -/
theorem flushed_eq (c : Dev nD) (t : Fin cfg0.N) :
    (dats m 0 c).flushed 2 t = ((cfg0.win 2).blk t).view.read (Elt Ideal) (outArr (V m c main_v3) (V m c main_v1)) := by
  show (cfg0.win 2).cut (grid0.coords t) ((dats m 0 c).after 2 t) = _
  rw [after0_2]
  unfold out0_2
  rw [View.canon_unit_zero hz3]
  simp only [View.ld_unit_zero (S := S1x2500x128) hz3, View.ld_unit_zero (S := S1024x128) hz2]
  funext j
  obtain ⟨u, p, e, rfl⟩ : ∃ (u : Fin 1) (p : Fin 1024) (e : Fin 128), j = ix3 u p e := ⟨j 0, j 1, j 2, eq_ix3 j⟩
  obtain rfl : u = 0 := Subsingleton.elim _ _
  obtain ⟨-, -, -, -, -, e5, -⟩ := idx_facts t
  show k0_pay1 (iblk m c 1 t) (iblk m c 0 t) (ix3 (0 : Fin 1) p e)
    = outArr (V m c main_v3) (V m c main_v1) (((cfg0.win 2).blk t).view.emb (ix3 (0 : Fin 1) p e))
  refine (pay_apply (iblk m c 1 t) (iblk m c 0 t) p e).trans ?_
  unfold outArr attend
  have he : (⟨((((cfg0.win 2).blk t).view.emb (ix3 (0 : Fin 1) p e)) 2).val, ((((cfg0.win 2).blk t).view.emb (ix3 (0 : Fin 1) p e)) 2).isLt⟩ : Fin 128) = e :=
    Fin.ext (by
      show win0_2.index t (2 : Fin 3) * 128 + 1 * e.val = e.val
      rw [e5]; omega)
  rw [he]
  congr 1
  · funext l
    refine Finset.sum_congr rfl fun k _ => ?_
    rw [labelBlock_apply m c t p k ⟨((((cfg0.win 2).blk t).view.emb (ix3 (0 : Fin 1) p e)) 1).val, ((((cfg0.win 2).blk t).view.emb (ix3 (0 : Fin 1) p e)) 1).isLt⟩ rfl,
      seqBlock_apply m c t l k ⟨((((cfg0.win 2).blk t).view.emb (ix3 (0 : Fin 1) p e)) 0).val, ((((cfg0.win 2).blk t).view.emb (ix3 (0 : Fin 1) p e)) 0).isLt⟩ rfl]
  · funext l
    rw [seqBlock_apply m c t l e ⟨((((cfg0.win 2).blk t).view.emb (ix3 (0 : Fin 1) p e)) 0).val, ((((cfg0.win 2).blk t).view.emb (ix3 (0 : Fin 1) p e)) 0).isLt⟩ rfl]

/-- An index of the output is in point `t`'s block iff each coordinate is in the block's range on its axis. -/
theorem mem_blk (t : Fin cfg0.N) (i : S8x9216x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v4).slice (win0_2.rect t)).set ↔ _
  rw [View.set_slice_whole, Rect.mem_set_unit]
  exact Iff.rfl

/-- The 8 × 9 blocks tile the output: every index is in some flushing point's block. -/
theorem cover (i : S8x9216x128.Idx) : ∃ t : Fin cfg0.N, (cfg0.win 2).flush t = true ∧ i ∈ ((cfg0.win 2).blk t).view.set := by
  have hi0 : (i 0).val < 8 := (i 0).isLt
  have hi1 : (i 1).val < 9216 := (i 1).isLt
  have hi2 : (i 2).val < 128 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- The output array after the run. -/
theorem final (c : Dev nD) : (dats m 0 c).arrAt 2 cfg0.N = outArr (V m c main_v3) (V m c main_v1) :=
  (dats m 0 c).arrAt_eq_of_cover 2 (outArr (V m c main_v3) (V m c main_v1)) (fun t _ => flushed_eq m c t) cover

end Cert.KernelIdeal.Blocks

end
-- ==== Proof.KernelHost.lean ====
/-
  The attention kernel's program around its one launch: what is staged, and what is returned.

  Before the launch the host pads the sequences from 100 to 128 lanes and the labels from `[8922, 100]` to `[9216, 128]`
  with zeros (the pad value is the integer 0 converted) and changes their float format, which is the identity at the
  ideal values; so a staged entry is the input's entry inside the input's extent and 0 in the padded lanes. After the
  launch the host slices the `[8, 9216, 128]` output back to `[8, 8922, 100]`. A padded lane contributes `0 · 0 = 0` to a
  score, so the score of label `n` against a position is the sum over the 100 real lanes, and the returned element at
  `(b, n, e)` is label `n` attending over batch `b`'s positions, normalised after the weighted sum.
-/
import proofs.«420723_j18124761989378_3_alg».proof.Proof.KernelBlocks
import Idealize.ShloMosaic.Lib.StableHlo.Run
import Idealize.ShloMosaic.Lib.KernelVsHost
import Idealize.ShloMosaic.Lib.Pipeline.Value

set_option maxRecDepth 16384

noncomputable section

namespace Cert.KernelIdeal.Host

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Blocks
open scoped BigOperators

variable (m : (ℓ : Loc nD τ sig) → Buf (Elt Ideal) ℓ) (ρ : Dev nD → PrngReg)

/-- The staged sequences, the staged labels and the two inputs, at their literal types. -/
abbrev seqArr (c : Dev nD) : S8x2500x128.Idx → EReal := V m c main_v1
abbrev labArr (c : Dev nD) : S9216x128.Idx → EReal := V m c main_v3
abbrev xIn (c : Dev nD) : S8x2500x100.Idx → EReal := m ((c : Thread nD τ).loc main_arg0)
abbrev labIn (c : Dev nD) : S8922x100.Idx → EReal := m ((c : Thread nD τ).loc main_arg1)

/-- The pad value: the integer 0 converted to a float is 0. -/
theorem padValue_eq : (sitofp (F := Ideal) .f32 (constantI S_ 32 0#32)) (Shape.Idx.first h_S_) = (0 : EReal) := by
  show (((0#32 : BitVec 32).toInt : ℝ) : EReal) = 0
  simp

/-! ## The staged arrays -/

/-- The staged sequences: the first input padded to 128 lanes. -/
theorem seqArr_eq (c : Dev nD) :
    seqArr m c
      = truncf .bf16 (pad S8x2500x128 ![0, 0, 0] ![0, 0, 28] ![0, 0, 0] (xIn m c)
          (sitofp (F := Ideal) .f32 (constantI S_ 32 0#32)) pads_S8x2500x100_S8x2500x128_000_000_0280 h_S_) bitsLt_bf16_f32 := by
  dsimp only [seqArr, labArr, xIn, labIn, V, V0]
  simp only [hostOps0, hostOps0_1, hostOps0_2, hostOps0_3, hostOps0_4, List.flatten_cons, List.flatten_nil, List.append_nil,
    List.cons_append, List.nil_append]
  after_results
  rfl

/-- The staged labels: the second input padded to 9216 rows of 128 lanes. -/
theorem labArr_eq (c : Dev nD) :
    labArr m c
      = truncf .bf16 (pad S9216x128 ![0, 0] ![294, 28] ![0, 0] (labIn m c)
          (sitofp (F := Ideal) .f32 (constantI S_ 32 0#32)) pads_S8922x100_S9216x128_02940_0280 h_S_) bitsLt_bf16_f32 := by
  dsimp only [seqArr, labArr, xIn, labIn, V, V0]
  simp only [hostOps0, hostOps0_1, hostOps0_2, hostOps0_3, hostOps0_4, List.flatten_cons, List.flatten_nil, List.append_nil,
    List.cons_append, List.nil_append]
  after_results
  rfl

/-- A staged sequence entry in one of the 100 real lanes is the input's. -/
theorem seqArr_inside (c : Dev nD) (b : Fin 8) (l : Fin 2500) (k : Fin 100) :
    seqArr m c (ix3 b l (Fin.castAdd 28 k : Fin 128)) = xIn m c (ix3 b l k) := by
  rw [seqArr_eq, truncf_apply]
  refine pad_apply_of_inside _ _ _ _ _ _ _ (ix3 b l (Fin.castAdd 28 k : Fin 128)) (ix3 b l k) fun a => ?_
  match a with
  | ⟨0, _⟩ => show b.val = 0 + b.val * (0 + 1); omega
  | ⟨1, _⟩ => show l.val = 0 + l.val * (0 + 1); omega
  | ⟨2, _⟩ => show k.val = 0 + k.val * (0 + 1); omega

/-- A staged sequence entry in one of the 28 padded lanes is 0. -/
theorem seqArr_outside (c : Dev nD) (b : Fin 8) (l : Fin 2500) (j : Fin 28) :
    seqArr m c (ix3 b l (Fin.natAdd 100 j : Fin 128)) = 0 := by
  rw [seqArr_eq, truncf_apply]
  refine (pad_apply_of_not_inside _ _ _ _ _ _ _ (ix3 b l (Fin.natAdd 100 j : Fin 128)) (2 : Fin 3) ?_).trans padValue_eq
  show ¬(0 ≤ 100 + j.val ∧ (100 + j.val - 0) % (0 + 1) = 0 ∧ (100 + j.val - 0) / (0 + 1) < 100)
  omega

/-- A staged label entry of one of the 8922 real rows, in one of the 100 real lanes, is the input's. -/
theorem labArr_inside (c : Dev nD) (n : Fin 8922) (k : Fin 100) :
    labArr m c (ix2 (Fin.castAdd 294 n : Fin 9216) (Fin.castAdd 28 k : Fin 128)) = labIn m c (ix2 n k) := by
  rw [labArr_eq, truncf_apply]
  refine pad_apply_of_inside _ _ _ _ _ _ _ (ix2 (Fin.castAdd 294 n : Fin 9216) (Fin.castAdd 28 k : Fin 128)) (ix2 n k) fun a => ?_
  match a with
  | ⟨0, _⟩ => show n.val = 0 + n.val * (0 + 1); omega
  | ⟨1, _⟩ => show k.val = 0 + k.val * (0 + 1); omega

/-- A staged label entry in one of the 28 padded lanes is 0. -/
theorem labArr_outside (c : Dev nD) (n : Fin 9216) (j : Fin 28) :
    labArr m c (ix2 n (Fin.natAdd 100 j : Fin 128)) = 0 := by
  rw [labArr_eq, truncf_apply]
  refine (pad_apply_of_not_inside _ _ _ _ _ _ _ (ix2 n (Fin.natAdd 100 j : Fin 128)) (1 : Fin 2) ?_).trans padValue_eq
  show ¬(0 ≤ 100 + j.val ∧ (100 + j.val - 0) % (0 + 1) = 0 ∧ (100 + j.val - 0) / (0 + 1) < 100)
  omega

/-! ## The returned array -/

/-- Label `n` attending over batch `b` of the INPUTS, lane `e`, normalised after the weighted sum. -/
def answer (x : S8x2500x100.Idx → EReal) (lab : S8922x100.Idx → EReal) (b : Fin 8) (n : Fin 8922) (e : Fin 100) : EReal :=
  Cert.AttnRow.scaledAfter (fun l : Fin 2500 => ∑ k : Fin 100, lab (ix2 n k) * x (ix3 b l k)) (fun l : Fin 2500 => x (ix3 b l e))

/-- On the staged arrays, a real label row attending in a real lane is the answer on the inputs: the 28 padded lanes of a
    score vanish. -/
theorem attend_staged (c : Dev nD) (b : Fin 8) (n : Fin 8922) (e : Fin 100) :
    attend (labArr m c) (seqArr m c) b (Fin.castAdd 294 n : Fin 9216) (Fin.castAdd 28 e : Fin 128)
      = answer (xIn m c) (labIn m c) b n e := by
  unfold attend answer
  have hs : (fun l : Fin 2500 => ∑ k : Fin 128, labArr m c (ix2 (Fin.castAdd 294 n : Fin 9216) k) * seqArr m c (ix3 b l k))
      = fun l : Fin 2500 => ∑ k : Fin 100, labIn m c (ix2 n k) * xIn m c (ix3 b l k) := by
    funext l
    refine (Cert.AttnRow.sum_of_tail_zero (n := 100) (p := 28)
      (fun k : Fin (100 + 28) => labArr m c (ix2 (Fin.castAdd 294 n : Fin 9216) k) * seqArr m c (ix3 b l k)) fun j => ?_).trans ?_
    · show labArr m c (ix2 (Fin.castAdd 294 n : Fin 9216) (Fin.natAdd 100 j : Fin 128)) * seqArr m c (ix3 b l (Fin.natAdd 100 j : Fin 128)) = 0
      rw [labArr_outside, zero_mul]
    · refine Finset.sum_congr rfl fun k _ => ?_
      show labArr m c (ix2 (Fin.castAdd 294 n : Fin 9216) (Fin.castAdd 28 k : Fin 128)) * seqArr m c (ix3 b l (Fin.castAdd 28 k : Fin 128)) = _
      rw [labArr_inside, seqArr_inside]
  have hv : (fun l : Fin 2500 => seqArr m c (ix3 b l (Fin.castAdd 28 e : Fin 128)))
      = fun l : Fin 2500 => xIn m c (ix3 b l e) := funext fun l => seqArr_inside m c b l e
  rw [hs, hv]

/-- The slice of the output array back to the result's extent, at `(b, n, e)`. -/
theorem slice_apply (qa : S9216x128.Idx → EReal) (xa : S8x2500x128.Idx → EReal) (b : Fin 8) (n : Fin 8922) (e : Fin 100) :
    extractStridedSlice S8x8922x100 ![0, 0, 0] (outArr qa xa) slices_S8x9216x128_S8x8922x100_0_0_0 (ix3 b n e)
      = attend qa xa b (Fin.castAdd 294 n : Fin 9216) (Fin.castAdd 28 e : Fin 128) := by
  refine (extractStridedSlice_apply _ _ _ (ix3 b n e) (ix3 b (Fin.castAdd 294 n : Fin 9216) (Fin.castAdd 28 e : Fin 128)) fun a => ?_).trans rfl
  match a with
  | ⟨0, _⟩ => show b.val = 0 + b.val; omega
  | ⟨1, _⟩ => show n.val = 0 + n.val; omega
  | ⟨2, _⟩ => show e.val = 0 + e.val; omega

/-- The returned array, as the frame run's post names it: the slice of the output array after the run. -/
theorem result_eq (c : Dev nD) :
    Pipeline.afterTail₀ cfgs (dats m) 0 (V0 m) [hostOps1] c main_v5
      = extractStridedSlice S8x8922x100 ![0, 0, 0] (outArr (labArr m c) (seqArr m c)) slices_S8x9216x128_S8x8922x100_0_0_0 := by
  unfold Pipeline.afterTail₀
  show StableHlo.after hostOps1 _ (Proc.devRef .tc main_v5) = _
  after_results
  exact congrArg (fun a => extractStridedSlice S8x8922x100 ![0, 0, 0] a slices_S8x9216x128_S8x8922x100_0_0_0)
    ((Pipeline.withArrays_arr spec0 launch0.win.arr_inj c (V0 m c) (fun w => (dats m 0 c).arrAt w cfg0.N) 2).trans (final m c))

/-- The returned array as one function of the two inputs. -/
def returned (x : S8x2500x100.Idx → EReal) (lab : S8922x100.Idx → EReal) : S8x8922x100.Idx → EReal := fun i =>
  answer x lab ⟨(i 0).val, (i 0).isLt⟩ ⟨(i 1).val, (i 1).isLt⟩ ⟨(i 2).val, (i 2).isLt⟩

theorem result_returned (c : Dev nD) :
    Pipeline.afterTail₀ cfgs (dats m) 0 (V0 m) [hostOps1] c main_v5
      = returned (xIn m c) (labIn m c) := by
  rw [result_eq]
  funext i
  obtain ⟨b, n, e, rfl⟩ : ∃ (b : Fin 8) (n : Fin 8922) (e : Fin 100), i = ix3 b n e := ⟨i 0, i 1, i 2, eq_ix3 i⟩
  rw [slice_apply, attend_staged]
  rfl

/-- The kernel program's run: it terminates with the returned array at `returned` of the inputs, the inputs unchanged. -/
theorem run : θ_run defs (onTc (τ := τ) (main (F := Ideal))) ⟨m, fun _ => 0, ρ⟩ fun r => ∀ c : Dev nD,
      r.2.mem ((c.tc : Thread nD τ).loc main_v5) = returned (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (result_returned m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Host

end
-- ==== Proof.RefRow.lean ====
/-
  What the reference computes, read at one element.

  The reference forms the scores `s[b, n, l] = Σ_k x[b, l, k] · label[n, k]`, the softmax over the positions `l`
  (each row's maximum from −∞, the weights `exp (s − max)`, their total from zero, every weight divided by the total),
  and the result `Σ_l softmax[b, n, l] · x[b, l, e]`. Read one operation at a time at an index, the element at `(b, n, e)`
  is one row of attention with every weight normalised before the weighted sum (`Cert.AttnRow.scaledBefore`).
-/
import proofs.«420723_j18124761989378_3_alg».proof.Proof.Gen.ReferenceIdeal.Read
import proofs.«420723_j18124761989378_3_alg».proof.Proof.AttnRow
import proofs.«420723_j18124761989378_3_alg».proof.Proof.LibColumn
import Idealize.ShloMosaic.Lib.ValueIdx
import Idealize.ShloMosaic.PureOps.Ideal.Laws

noncomputable section

namespace Cert.ReferenceIdeal.Row

open Idealize.ShloMosaic Idealize.ShloMosaic.ValueIdx Idealize.ShloMosaic.Column
open Cert.ReferenceIdeal Cert.ReferenceIdeal.Gen Cert.ReferenceIdeal.Read
open scoped BigOperators

variable (x : (⟨S8x2500x100, .f32⟩ : BufTy).Contents (Elt Ideal)) (lab : (⟨S8922x100, .f32⟩ : BufTy).Contents (Elt Ideal))

/-- The score of label `n` against position `l` of batch `b`. -/
def score (b : Fin 8) (n : Fin 8922) (l : Fin 2500) : EReal := ∑ k : Fin 100, x (ix3 b l k) * lab (ix2 n k)

/-- The transposed scores at `(b, n, l)`. -/
theorem scores_apply (b : Fin 8) (n : Fin 8922) (l : Fin 2500) :
    val_main_v1 (F := Ideal) x lab (ix3 b n l) = score x lab b n l := by
  rw [val_main_v1_apply, val_main_v0_apply]
  unfold score
  refine Finset.sum_congr rfl fun k _ => ?_
  have e0 : lidx_main_v0 (idx_main_v1 (ix3 b n l)) k = ix3 b l k :=
    funext fun a => by match a with | ⟨0, _⟩ => rfl | ⟨1, _⟩ => rfl | ⟨2, _⟩ => rfl
  have e1 : ridx_main_v0 (idx_main_v1 (ix3 b n l)) k = ix2 n k :=
    funext fun a => by match a with | ⟨0, _⟩ => rfl | ⟨1, _⟩ => rfl
  rw [e0, e1]

theorem reduces_rows : S8x8922x2500.Reduces [2] S8x8922 := by decide

/-- The source index over `(b, n)` with position `l` inserted on the reduced axis. -/
theorem lift_rows (b : Fin 8) (n : Fin 8922) (l : Fin 2500) : reduces_rows.lift (ix2 b n) l = ix3 b n l :=
  funext fun a => Fin.ext (by match a with | ⟨0, _⟩ => rfl | ⟨1, _⟩ => rfl | ⟨2, _⟩ => rfl)

/-- The row maximum at `(b, n)`: the fold of max from −∞ over the positions. -/
theorem rowMax_apply (b : Fin 8) (n : Fin 8922) :
    val_main_v2 (F := Ideal) x lab (ix2 b n) = Finset.univ.fold max (⊥ : EReal) (score x lab b n) := by
  unfold val_main_v2
  rw [Host.reduce_eq_fold_single FloatOps.maximumf _ _ reducesTo_S8x8922x2500_S8x8922_d2 reduces_rows h_S_]
  rw [val_main_cst_apply, Ideal.ofBits_def, ofBits_negInf_f32]
  have hf : (val_main_v1 (F := Ideal) x lab ∘ reduces_rows.lift (ix2 b n)) = score x lab b n :=
    funext fun l => (congrArg (val_main_v1 (F := Ideal) x lab) (lift_rows b n l)).trans (scores_apply x lab b n l)
  exact congrArg (fun f => Finset.fold max (⊥ : EReal) f (Finset.univ : Finset (Fin 2500))) hf

/-- The weight at `(b, n, l)`: `exp (score − row maximum)`. -/
theorem weight_apply (b : Fin 8) (n : Fin 8922) (l : Fin 2500) :
    val_main_v8 (F := Ideal) x lab (ix3 b n l) = Cert.AttnRow.weight (score x lab b n) l := by
  rw [val_main_v8_apply, val_main_v7_apply, val_main_v6_apply, val_main_v5_apply, val_main_v4_apply, val_main_v3_apply,
    val_main_cst_0_apply, scores_apply]
  have e : idx_main_v5 (idx_main_v6 (ix3 b n l)) = ix2 b n :=
    funext fun a => by match a with | ⟨0, _⟩ => rfl | ⟨1, _⟩ => rfl
  rw [e, rowMax_apply, Ideal.hostUnary_exp_def, Ideal.subf_def, Ideal.maximumf_def, Ideal.ofBits_def, ofBits_negInf_f32,
    max_eq_right bot_le]
  rfl

/-- The weights' total at `(b, n)`. -/
theorem total_apply (b : Fin 8) (n : Fin 8922) :
    val_main_v9 (F := Ideal) x lab (ix2 b n) = ∑ l : Fin 2500, Cert.AttnRow.weight (score x lab b n) l := by
  rw [val_main_v9_apply, val_main_cst_1_apply, Ideal.ofBits_def, Ideal.ofBits_zero_f32, zero_add]
  refine Finset.sum_congr rfl fun l _ => ?_
  have e : idx_main_v9 (ix2 b n) l = ix3 b n l :=
    funext fun a => by match a with | ⟨0, _⟩ => rfl | ⟨1, _⟩ => rfl | ⟨2, _⟩ => rfl
  rw [e, weight_apply]

/-- The normalised weight at `(b, n, l)`. -/
theorem softmax_apply (b : Fin 8) (n : Fin 8922) (l : Fin 2500) :
    val_main_v12 (F := Ideal) x lab (ix3 b n l)
      = Ideal.div (Cert.AttnRow.weight (score x lab b n) l) (∑ l' : Fin 2500, Cert.AttnRow.weight (score x lab b n) l') := by
  rw [val_main_v12_apply, val_main_v11_apply, val_main_v10_apply, weight_apply]
  have e : idx_main_v10 (idx_main_v11 (ix3 b n l)) = ix2 b n :=
    funext fun a => by match a with | ⟨0, _⟩ => rfl | ⟨1, _⟩ => rfl
  rw [e, total_apply, Ideal.hostDivf_def]

/-- The reference's result at `(b, n, e)`: label `n` attending over batch `b`'s positions, lane `e` of the values, every
    weight normalised first. -/
theorem result_apply (b : Fin 8) (n : Fin 8922) (e : Fin 100) :
    val_main_v13 (F := Ideal) x lab (ix3 b n e)
      = Cert.AttnRow.scaledBefore (score x lab b n) (fun l : Fin 2500 => x (ix3 b l e)) := by
  rw [val_main_v13_apply]
  unfold Cert.AttnRow.scaledBefore
  refine Finset.sum_congr rfl fun l _ => ?_
  have e0 : lidx_main_v13 (ix3 b n e) l = ix3 b n l :=
    funext fun a => by match a with | ⟨0, _⟩ => rfl | ⟨1, _⟩ => rfl | ⟨2, _⟩ => rfl
  have e1 : ridx_main_v13 (ix3 b n e) l = ix3 b l e :=
    funext fun a => by match a with | ⟨0, _⟩ => rfl | ⟨1, _⟩ => rfl | ⟨2, _⟩ => rfl
  rw [e0, e1, softmax_apply]

end Cert.ReferenceIdeal.Row

end
-- ==== Proof.Finite.lean ====
/-
  From the precondition to real entries.

  The precondition says, of each of the two inputs, that every entry's absolute value is below +∞ (an all-reduce by
  `and` of the entrywise comparisons, the two results joined by `and`). An extended real whose absolute value
  `max v (−v)` is below +∞ is neither infinity, hence a real number. So under the precondition both inputs are arrays of reals.
-/
import proofs.«420723_j18124761989378_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx
open Cert.Pre_finite_inputs Cert.Pre_finite_inputs.Gen

instance : Subsingleton S_.Idx := ⟨fun a b => funext fun d => d.elim0⟩

/-- An extended real whose absolute value compares below the f32 word of +∞ is a real. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = (⊤ : EReal) := by simp [Ideal.ofBits, Ideal.ieee]
  rw [htop] at h
  have hlt : max v (-v) < ⊤ := by
    by_contra hn
    have h0 : Ideal.cmp .olt (max v (-v)) ⊤ = 0#1 := by
      show BitVec.ofBool (decide (max v (-v) < ⊤)) = 0#1
      rw [decide_eq_false hn]; rfl
    rw [h0] at h
    exact absurd h (by decide)
  induction v using EReal.rec with
  | bot => simp at hlt
  | coe r => exact ⟨r, rfl⟩
  | top => simp at hlt

/-- Under the precondition every entry of both inputs is a real. -/
theorem all_real (x : FVec Ideal S8x2500x100 .f32) (lab : FVec Ideal S8922x100 .f32)
    (h : fn (F := Ideal) x lab = fun _ => 1#1) :
    (∀ i, ∃ r : ℝ, x i = (r : EReal)) ∧ (∀ i, ∃ r : ℝ, lab i = (r : EReal)) := by
  have h0 := congrFun h ix0
  dsimp only [fn] at h0
  obtain ⟨hx, hl⟩ := IntOp.andi_eq_one.1 h0
  refine ⟨fun i => ?_, fun i => ?_⟩
  · have e := Host.reduce_andi_all _ _ _ _ ix0 hx i
    exact real_of_abs_lt_inf (x i) e
  · have e := Host.reduce_andi_all _ _ _ _ ix0 hl i
    exact real_of_abs_lt_inf (lab i) e

end Cert.Finite

end
-- ==== Proof.Bridge.lean ====
/-
  The kernel's returned array is the reference's result, for real inputs.

  At `(b, n, e)` the kernel returns label `n` attending over batch `b`'s positions with the weighted sum of the values divided
  once by the weights' total; the reference returns the same attention with every weight divided by the total first. The
  two score sums differ only in the order of each product's factors. When the inputs' entries are reals, so are the scores
  (finite sums of products of reals) and the values, and on reals the two normalisations agree (`Cert.AttnRow`).
-/
import proofs.«420723_j18124761989378_3_alg».proof.Proof.KernelHost
import proofs.«420723_j18124761989378_3_alg».proof.Proof.RefRow

noncomputable section

namespace Cert.Bridge

open Idealize.ShloMosaic Idealize.ShloMosaic.ValueIdx
open scoped BigOperators

/-- For inputs all of whose entries are reals, the kernel program's returned array is the reference's result array. -/
theorem returned_eq_reference
    (x : (⟨Cert.ReferenceIdeal.S8x2500x100, .f32⟩ : BufTy).Contents (Elt Ideal))
    (lab : (⟨Cert.ReferenceIdeal.S8922x100, .f32⟩ : BufTy).Contents (Elt Ideal))
    (hx : ∀ i, ∃ r : ℝ, x i = (r : EReal)) (hl : ∀ i, ∃ r : ℝ, lab i = (r : EReal)) :
    Cert.KernelIdeal.Host.returned x lab = Cert.ReferenceIdeal.Read.val_main_v13 (F := Ideal) x lab := by
  funext i
  obtain ⟨b, n, e, rfl⟩ : ∃ (b : Fin 8) (n : Fin 8922) (e : Fin 100), i = ix3 b n e := ⟨i 0, i 1, i 2, eq_ix3 i⟩
  rw [Cert.ReferenceIdeal.Row.result_apply]
  show Cert.KernelIdeal.Host.answer x lab b n e = _
  unfold Cert.KernelIdeal.Host.answer
  choose X hX using hx
  choose Lb hL using hl
  have hs : (fun l : Fin 2500 => ∑ k : Fin 100, lab (ix2 n k) * x (ix3 b l k))
      = fun l : Fin 2500 => ((∑ k : Fin 100, Lb (ix2 n k) * X (ix3 b l k) : ℝ) : EReal) := funext fun l => by
    rw [Cert.RealSums.coe_sum]
    exact Finset.sum_congr rfl fun k _ => by rw [hX, hL, EReal.coe_mul]
  have hs' : Cert.ReferenceIdeal.Row.score x lab b n
      = fun l : Fin 2500 => ((∑ k : Fin 100, Lb (ix2 n k) * X (ix3 b l k) : ℝ) : EReal) := funext fun l => by
    unfold Cert.ReferenceIdeal.Row.score
    rw [Cert.RealSums.coe_sum]
    exact Finset.sum_congr rfl fun k _ => by rw [hX, hL, EReal.coe_mul, mul_comm]
  have hv : (fun l : Fin 2500 => x (ix3 b l e)) = fun l : Fin 2500 => ((X (ix3 b l e) : ℝ) : EReal) :=
    funext fun l => hX _
  rw [hs, hs', hv]
  exact Cert.AttnRow.scaledAfter_eq_scaledBefore (by decide) _ _

end Cert.Bridge

end
-- ==== Proof.lean ====
/-
  Unscaled dot-product attention of 8922 label vectors over 8 sequences of 2500 positions, 100 features each:
  the tiled kernel against the plain reference, over the extended reals.

  `scores[b, n, l] = label[n, :] · x[b, l, :]`, a softmax over the positions `l`, and `out[b, n, e] = Σ_l softmax[b, n, l] · x[b, l, e]`.
  The kernel pads the features to 128 lanes and the labels to 9216 rows with zeros, computes one `[1024, 128]` tile per grid
  point — the weights `exp (score − row maximum)`, their weighted sum of the values, then ONE division by the weights' total —
  and slices the padding away; the reference divides every weight by the total before the weighted sum.
  * The three frames: the two kernel programs' are the generated frames; the reference's is its generated run with the
    result dropped.
  * `preserves`: the idealization rewrote nothing.
  * `algebraic`: the kernel's returned array is read off its run block by block (each block the restriction of one
    function of the staged arrays; the blocks tile the output), through the host's zero padding (a padded lane adds `0 · 0` to
    a score) and final slice; the reference's result is read one operation at a time. Under the precondition every
    input entry is a real, so the scores, weights and totals are reals, and there dividing the weighted sum once is
    dividing every weight first.
-/
import proofs.«420723_j18124761989378_3_alg».proof.Defs
import proofs.«420723_j18124761989378_3_alg».proof.Proof.Gen.Kernel
import proofs.«420723_j18124761989378_3_alg».proof.Proof.Gen.Kernel.Skeleton
import proofs.«420723_j18124761989378_3_alg».proof.Proof.Gen.Kernel.Launch
import proofs.«420723_j18124761989378_3_alg».proof.Proof.Gen.Kernel.Points
import proofs.«420723_j18124761989378_3_alg».proof.Proof.Gen.Kernel.Frame
import proofs.«420723_j18124761989378_3_alg».proof.Proof.Gen.KernelIdeal
import proofs.«420723_j18124761989378_3_alg».proof.Proof.Gen.KernelIdeal.Skeleton
import proofs.«420723_j18124761989378_3_alg».proof.Proof.Gen.KernelIdeal.Launch
import proofs.«420723_j18124761989378_3_alg».proof.Proof.Gen.KernelIdeal.Points
import proofs.«420723_j18124761989378_3_alg».proof.Proof.Gen.KernelIdeal.Frame
import proofs.«420723_j18124761989378_3_alg».proof.Proof.Gen.ReferenceIdeal
import proofs.«420723_j18124761989378_3_alg».proof.Proof.Gen.Pre_finite_inputs
import proofs.«420723_j18124761989378_3_alg».proof.Proof.Gen.ReferenceIdeal.Run
import proofs.«420723_j18124761989378_3_alg».proof.Proof.Gen.ReferenceIdeal.Read
import proofs.«420723_j18124761989378_3_alg».proof.Proof.KernelHost
import proofs.«420723_j18124761989378_3_alg».proof.Proof.RefRow
import proofs.«420723_j18124761989378_3_alg».proof.Proof.Finite
import proofs.«420723_j18124761989378_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two inputs, both programs end with the same result array: the kernel's returned
    array as a function of its inputs, which for real inputs is the reference's result. -/
theorem algebraic : Cert.algebraic_KernelIdeal_ReferenceIdeal := by
  intro m ρ m' ρ' hpre hagree
  refine ⟨fun c => Cert.KernelIdeal.Host.returned
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq _ _).trans ?_
  rw [(hagree c).1, (hagree c).2]
  obtain ⟨hx, hl⟩ := Cert.Finite.all_real _ _ (hpre c)
  exact (Cert.Bridge.returned_eq_reference _ _ hx hl).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
